-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.BlockedSum.lean ====
/-
  A dot product of length 4096 cut into eight stretches of 512.

  The kernel never sees a whole row of `x` or of `weight`: at each grid point it holds 512 consecutive columns of
  2048 rows of `x` and of 1024 rows of `weight`, and adds the 512-term dot products of those row pieces to an
  accumulator that starts at zero.  The reference contracts all 4096 columns at once.  On the extended reals addition is
  commutative and associative without any side condition, so the two groupings of the same 4096 products agree; this file
  states that regrouping once, over any commutative monoid, with the arrays read through total functions of natural-number
  coordinates (zero outside the array) so that all index arithmetic is linear arithmetic on naturals.
-/
import Idealize.ShloMosaic.Lib.ValueIdx
import Mathlib.Algebra.BigOperators.Fin
import Mathlib.Logic.Equiv.Fin.Basic

noncomputable section

open scoped BigOperators

namespace Cert.BlockedSum

open Idealize.ShloMosaic Idealize.ShloMosaic.ValueIdx

/-! ## Regrouping a long sum into stretches -/

section Monoid
variable {M : Type*} [AddCommMonoid M]

/-- A sum over `a * b` consecutive naturals is the sum over `a` stretches of the sums over the `b` members of each. -/
theorem sum_fin_mul (a b : ℕ) (f : ℕ → M) :
    ∑ k : Fin (a * b), f k.val = ∑ i : Fin a, ∑ j : Fin b, f (j.val + b * i.val) := by
  rw [← Equiv.sum_comp finProdFinEquiv, Fintype.sum_prod_type]
  rfl

/-- The 4096 terms of a contraction, as eight stretches of 512 taken in order. -/
theorem sum_4096_eq_stretches (f : ℕ → M) :
    ∑ k : Fin 4096, f k.val = ∑ kb ∈ Finset.range 8, ∑ kk : Fin 512, f (512 * kb + kk.val) := by
  rw [← Fin.sum_univ_eq_sum_range (fun kb => ∑ kk : Fin 512, f (512 * kb + kk.val)) 8]
  refine (sum_fin_mul 8 512 f).trans ?_
  refine Finset.sum_congr rfl fun i _ => Finset.sum_congr rfl fun j _ => ?_
  rw [Nat.add_comm]

end Monoid

/-! ## The arrays through natural-number coordinates -/

/-- A 4096 × 4096 array read at natural-number coordinates, zero outside. -/
def at2 (A : (⟨2, ![4096, 4096]⟩ : Shape).Idx → EReal) (r k : ℕ) : EReal :=
  if h : r < 4096 ∧ k < 4096 then A (ix2 ⟨r, h.1⟩ ⟨k, h.2⟩) else 0

/-- A vector of length 4096 read at a natural-number coordinate, zero outside. -/
def at1 (v : (⟨1, ![4096]⟩ : Shape).Idx → EReal) (q : ℕ) : EReal :=
  if h : q < 4096 then v (ix1 ⟨q, h⟩) else 0

theorem at2_fin (A : (⟨2, ![4096, 4096]⟩ : Shape).Idx → EReal) (r k : Fin 4096) :
    at2 A r.val k.val = A (ix2 r k) := by
  unfold at2; rw [dif_pos ⟨r.isLt, k.isLt⟩]

theorem at2_of_lt (A : (⟨2, ![4096, 4096]⟩ : Shape).Idx → EReal) (r k : ℕ) (hr : r < 4096) (hk : k < 4096) :
    at2 A r k = A (ix2 ⟨r, hr⟩ ⟨k, hk⟩) := by
  unfold at2; rw [dif_pos ⟨hr, hk⟩]

theorem at1_fin (v : (⟨1, ![4096]⟩ : Shape).Idx → EReal) (q : Fin 4096) : at1 v q.val = v (ix1 q) := by
  unfold at1; rw [dif_pos q.isLt]

theorem at1_of_lt (v : (⟨1, ![4096]⟩ : Shape).Idx → EReal) (q : ℕ) (hq : q < 4096) : at1 v q = v (ix1 ⟨q, hq⟩) := by
  unfold at1; rw [dif_pos hq]

/-! ## What one grid point adds, and the result -/

/-- The 512-term dot product of row `r` of `X` and row `s` of `W` over the `kb`-th stretch of columns: what the
    grid point with reduction coordinate `kb` adds to the accumulator's entry for output (`r`, `s`). -/
def stretch (X W : (⟨2, ![4096, 4096]⟩ : Shape).Idx → EReal) (r s kb : ℕ) : EReal :=
  ∑ kk : Fin 512, at2 X r (512 * kb + kk.val) * at2 W s (512 * kb + kk.val)

/-- The accumulator's entry for output (`r`, `s`) after the first `n` stretches. -/
def partialDot (X W : (⟨2, ![4096, 4096]⟩ : Shape).Idx → EReal) (r s n : ℕ) : EReal :=
  ∑ kb ∈ Finset.range n, stretch X W r s kb

theorem partialDot_zero (X W : (⟨2, ![4096, 4096]⟩ : Shape).Idx → EReal) (r s : ℕ) : partialDot X W r s 0 = 0 := by
  unfold partialDot; rw [Finset.range_zero, Finset.sum_empty]

theorem partialDot_succ (X W : (⟨2, ![4096, 4096]⟩ : Shape).Idx → EReal) (r s n : ℕ) :
    partialDot X W r s (n + 1) = partialDot X W r s n + stretch X W r s n := by
  unfold partialDot; rw [Finset.sum_range_succ]

/-- `x · weightᵀ + bias`, entry by entry: the full 4096-term dot product of a row of `X` with a row of `W`, plus the
    bias entry of the output column. -/
def linear (X W : (⟨2, ![4096, 4096]⟩ : Shape).Idx → EReal) (b : (⟨1, ![4096]⟩ : Shape).Idx → EReal) :
    (⟨2, ![4096, 4096]⟩ : Shape).Idx → EReal :=
  fun j => (∑ k : Fin 4096, X (ix2 (j 0) k) * W (ix2 (j 1) k)) + b (ix1 (j 1))

/-- All eight stretches together are the full contraction. -/
theorem partialDot_eight (X W : (⟨2, ![4096, 4096]⟩ : Shape).Idx → EReal) (r s : Fin 4096) :
    partialDot X W r.val s.val 8 = ∑ k : Fin 4096, X (ix2 r k) * W (ix2 s k) := by
  unfold partialDot stretch
  rw [← sum_4096_eq_stretches (fun k => at2 X r.val k * at2 W s.val k)]
  exact Finset.sum_congr rfl fun k _ => by rw [at2_fin, at2_fin]

/-- The kernel's grouping (eight stretches, then the bias) is the reference's (one contraction, then the bias). -/
theorem linear_eq_stretches (X W : (⟨2, ![4096, 4096]⟩ : Shape).Idx → EReal) (b : (⟨1, ![4096]⟩ : Shape).Idx → EReal)
    (r s : Fin 4096) : linear X W b (ix2 r s) = partialDot X W r.val s.val 8 + at1 b s.val := by
  rw [partialDot_eight, at1_fin]; rfl

end Cert.BlockedSum

end
-- ==== Proof.Blocks.lean ====
/-
  The kernel's result array, entry by entry.

  The grid is 2 × 4 × 8: point number t has row-tile i = t / 32, column-tile j = (t / 8) mod 4 and reduction step
  k = t mod 8.  At that point the body sees rows 2048·i … of `x` and rows 1024·j … of `weight`, both restricted to columns
  512·k …, and columns 1024·j … of the bias row.  The accumulator is private to the body and survives from one point to
  the next; it is cleared when k = 0.  So after point t it holds, at (p, q), the dot product of row 2048·i + p of `x`
  with row 1024·j + q of `weight` over the first k + 1 stretches of 512 columns (`scratch_eq`, by induction on t: one step
  adds one stretch).  At k = 7 all eight stretches are in, the body adds the bias and the block is written back to rows
  2048·i …, columns 1024·j … of the result; these 8 blocks tile the 4096 × 4096 result, which therefore is
  `x · weightᵀ + bias` everywhere (`result_eq`).
-/
import proofs.«138088_j32555852104252_1_alg».proof.Proof.Gen.KernelIdeal.Value
import proofs.«138088_j32555852104252_1_alg».proof.Proof.BlockedSum
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.BlockedSum

variable (m : (ℓ : Loc nD τ sig) → Buf (Elt Ideal) ℓ)

/-! ## Names for the arguments and for the blocks a point sees -/

/-- `x`, `weight` and `bias` as the program was launched with them. -/
abbrev xArr (c : Dev nD) : S4096x4096.Idx → EReal := m ((c : Thread nD τ).loc main_arg0)
abbrev wArr (c : Dev nD) : S4096x4096.Idx → EReal := m ((c : Thread nD τ).loc main_arg1)
abbrev bArr (c : Dev nD) : S4096.Idx → EReal := m ((c : Thread nD τ).loc main_arg2)

/-- The blocks of `x`, of `weight` and of the bias row that point `t` sees. -/
abbrev xblk (c : Dev nD) (t : Fin cfg0.N) : Vec Ideal S2048x512 .f32 := iblk m c 0 t
abbrev wblk (c : Dev nD) (t : Fin cfg0.N) : Vec Ideal S1024x512 .f32 := iblk m c 1 t
abbrev bblk (c : Dev nD) (t : Fin cfg0.N) : Vec Ideal S1x1024 .f32 := iblk m c 2 t

/-- Which block of each array point `t` sees, from its number: decided over the 64 points. -/
theorem block_index : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

theorem lt_64 (t : Fin cfg0.N) : t.val < 64 := lt_of_lt_of_eq t.isLt (show cfg0.N = 64 from N_0)

/-! ## The blocks, read from the arguments -/

/-- Entry (p, kk) of the `x` block at point `t` is `x` at row 2048·(t/32) + p, column 512·(t mod 8) + kk. -/
theorem xblk_apply (c : Dev nD) (t : Fin cfg0.N) (p : Fin 2048) (kk : Fin 512) :
    xblk m c t (ix2 p kk) = at2 (xArr m c) (2048 * (t.val / 32) + p.val) (512 * (t.val % 8) + kk.val) := by
  have hN := lt_64 t
  obtain ⟨e0, e1, -⟩ := block_index t
  rw [at2_of_lt _ _ _ (by omega) (by omega)]
  unfold xblk iblk
  rw [View.read_apply]
  show V m c main_arg0 _ = m ((c : Thread nD τ).loc main_arg0) _
  rw [V_main_arg0 m c]
  congr 1
  funext a
  apply Fin.ext
  match a with
  | ⟨0, _⟩ => show win0_0.index t (0 : Fin 2) * 2048 + 1 * p.val = 2048 * (t.val / 32) + p.val; rw [e0]; omega
  | ⟨1, _⟩ => show win0_0.index t (1 : Fin 2) * 512 + 1 * kk.val = 512 * (t.val % 8) + kk.val; rw [e1]; omega

/-- Entry (q, kk) of the `weight` block at point `t` is `weight` at row 1024·((t/8) mod 4) + q, column 512·(t mod 8) + kk. -/
theorem wblk_apply (c : Dev nD) (t : Fin cfg0.N) (q : Fin 1024) (kk : Fin 512) :
    wblk m c t (ix2 q kk) = at2 (wArr m c) (1024 * (t.val / 8 % 4) + q.val) (512 * (t.val % 8) + kk.val) := by
  have hN := lt_64 t
  obtain ⟨-, -, e2, e3, -⟩ := block_index t
  rw [at2_of_lt _ _ _ (by omega) (by omega)]
  unfold wblk iblk
  rw [View.read_apply]
  show V m c main_arg1 _ = m ((c : Thread nD τ).loc main_arg1) _
  rw [V_main_arg1 m c]
  congr 1
  funext a
  apply Fin.ext
  match a with
  | ⟨0, _⟩ => show win0_1.index t (0 : Fin 2) * 1024 + 1 * q.val = 1024 * (t.val / 8 % 4) + q.val; rw [e2]; omega
  | ⟨1, _⟩ => show win0_1.index t (1 : Fin 2) * 512 + 1 * kk.val = 512 * (t.val % 8) + kk.val; rw [e3]; omega

/-- The bias row the region finds is `bias` recast as a 1 × 4096 array (the one host operation before the call). -/
theorem bias_row (c : Dev nD) :
    (V m c main_v0 : S1x4096.Idx → EReal) = shapeCast S1x4096 (bArr m c) shapeCasts_S4096_S1x4096 := by
  dsimp only [Gen.V, Gen.hostOps0]
  after_results
  rfl

/-- Entry (0, q) of the bias block at point `t` is `bias` at 1024·((t/8) mod 4) + q. -/
theorem bblk_apply (c : Dev nD) (t : Fin cfg0.N) (q : Fin 1024) :
    bblk m c t (ix2 (0 : Fin 1) q) = at1 (bArr m c) (1024 * (t.val / 8 % 4) + q.val) := by
  have hN := lt_64 t
  obtain ⟨-, -, -, -, e4, e5, -⟩ := block_index t
  have hq : 1024 * (t.val / 8 % 4) + q.val < 4096 := by omega
  rw [at1_of_lt _ _ hq]
  unfold bblk iblk
  rw [View.read_apply]
  show V m c main_v0 _ = _
  rw [bias_row m c]
  refine shapeCast_apply _ _ _ (ix1 ⟨1024 * (t.val / 8 % 4) + q.val, hq⟩) ?_
  rw [Shape.rowMajor_val_one, Shape.rowMajor_val_two]
  show 1024 * (t.val / 8 % 4) + q.val = (win0_2.index t (0 : Fin 2) * 1 + 1 * 0) * 4096 + (win0_2.index t (1 : Fin 2) * 1024 + 1 * q.val)
  rw [e4, e5]; omega

/-- The block product of point `t` at (p, q) is the stretch of the full dot product that belongs to its reduction step. -/
theorem block_product (c : Dev nD) (t : Fin cfg0.N) (p : Fin 2048) (q : Fin 1024) :
    ∑ kk : Fin 512, xblk m c t (ix2 p kk) * wblk m c t (ix2 q kk)
      = stretch (xArr m c) (wArr m c) (2048 * (t.val / 32) + p.val) (1024 * (t.val / 8 % 4) + q.val) (t.val % 8) := by
  unfold stretch
  exact Finset.sum_congr rfl fun kk _ => by rw [xblk_apply, wblk_apply]

end Cert.KernelIdeal.Blocks

end
-- ==== Proof.Pieces.lean ====
/-
  What one grid point leaves behind, as values.

  The body runs in three ways, by the reduction coordinate k of its grid point.  At k = 0 it clears the accumulator and then
  adds the point's block product to the cleared accumulator; at 0 < k < 7 it adds the block product to what the point
  before left; at k = 7 it does the same and then writes accumulator + bias row into the output block.  Each lemma below
  reads the buffers' final contents, which the frame records as lists of stores, back as the body's arithmetic applied to
  the input blocks (and to the accumulator as the point found it).  Every store and load is of a whole buffer, so a list of
  stores reads back as its last member, and a load after a store reads what was stored.
-/
import proofs.«138088_j32555852104252_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At k = 0 the accumulator ends at (block product) added to the cleared accumulator. -/
theorem scratch_after_A (c : Dev nD) (i : grid0.Coords) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x512 .f32) (x1 : Vec F S1024x512 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, View.ld_unit_zero (S := S2048x512) hz,
    View.ld_unit_zero (S := S1024x512) hz]

/-- At 0 < k < 7 the accumulator ends at (block product) added to what the point before left. -/
theorem scratch_after_B (c : Dev nD) (i : grid0.Coords) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S1024x512 .f32) (x2 : Vec F S1x1024 .f32) (xs0 : Vec F S2048x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S2048x1024) hz]
  simp only [View.readAt_eq_ld, harg3.read_unread, harg4.read_unread, harg7.read_unread,
    View.ld_unit_zero (S := S2048x512) hz, View.ld_unit_zero (S := S1024x512) hz, View.ld_unit_zero (S := S2048x1024) hz]

/-- At k = 7 the accumulator ends the same way, -/
theorem scratch_after_C (c : Dev nD) (i : grid0.Coords) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1024x512 .f32) (x2 : Vec F S1x1024 .f32) (xs0 : Vec F S2048x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S2048x1024) hz]
  simp only [View.readAt_eq_ld, harg3.read_unread, harg4.read_unread, harg7.read_unread,
    View.ld_unit_zero (S := S2048x512) hz, View.ld_unit_zero (S := S1024x512) hz, View.ld_unit_zero (S := S2048x1024) hz]

/-- and the output block ends at that final accumulator plus the bias row on every row. -/
theorem out_after_C (c : Dev nD) (i : grid0.Coords) (arg3 : Memref sig .tc .vmem S2048x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1024x512 .f32) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S2048x1024) hz, View.readCov_unit_zero (S := S2048x1024) _ hz]
  simp only [View.readAt_eq_ld, harg3.read_unread, harg4.read_unread, harg5.read_unread, harg7.read_unread,
    View.ld_unit_zero (S := S2048x512) hz, View.ld_unit_zero (S := S1024x512) hz, View.ld_unit_zero (S := S2048x1024) hz,
    View.ld_unit_zero (S := S1x1024) hz]

end Cert.KernelIdeal.Pieces

end
-- ==== Proof.Payload.lean ====
/-
  The body's arithmetic, one entry at a time, on the extended reals.

  There a change of float format is the identity, a matrix product into a zero accumulator is the plain sum of products
  over the contracted axis, and the zero word is 0.  So at entry (p, q) of the 2048 × 1024 block:
    the cleared accumulator holds 0;
    one accumulation step holds  acc(p, q) + Σ_kk x(p, kk) · w(q, kk)  over the 512 columns of the two input blocks
      (both operands are contracted along their second axis, so the product is x · wᵀ);
    the epilogue holds  acc(p, q) + bias(0, q):  the 1 × 1024 bias row is repeated on every row.
-/
import proofs.«138088_j32555852104252_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem

namespace Cert.KernelIdeal.Payload

open Cert.KernelIdeal Cert.KernelIdeal.Gen Idealize.ShloMosaic.ValueIdx

/-! ## The product's operand indices: row of `x`, row of `w`, and the shared column -/

theorem xrow_axis0 (i : S2048x1024.Idx) (k : dot_S2048x512_S1024x512_S2048x1024_1_1_0_0_n_n.contr.Idx) :
    (dot_S2048x512_S1024x512_S2048x1024_1_1_0_0_n_n.lhsIdx i k 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem xrow_axis1 (i : S2048x1024.Idx) (k : dot_S2048x512_S1024x512_S2048x1024_1_1_0_0_n_n.contr.Idx) :
    (dot_S2048x512_S1024x512_S2048x1024_1_1_0_0_n_n.lhsIdx i k 1).val = (k ⟨0, by decide⟩).val :=
  dot_S2048x512_S1024x512_S2048x1024_1_1_0_0_n_n.lhsIdx_val_of_single rfl i k
theorem wrow_axis0 (i : S2048x1024.Idx) (k : dot_S2048x512_S1024x512_S2048x1024_1_1_0_0_n_n.contr.Idx) :
    (dot_S2048x512_S1024x512_S2048x1024_1_1_0_0_n_n.rhsIdx i k 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem wrow_axis1 (i : S2048x1024.Idx) (k : dot_S2048x512_S1024x512_S2048x1024_1_1_0_0_n_n.contr.Idx) :
    (dot_S2048x512_S1024x512_S2048x1024_1_1_0_0_n_n.rhsIdx i k 1).val = (k ⟨0, by decide⟩).val :=
  dot_S2048x512_S1024x512_S2048x1024_1_1_0_0_n_n.rhsIdx_val_of_single rfl i k

/-! ## The three stored values at an entry -/

/-- The cleared accumulator is 0 everywhere. -/
theorem cleared_apply (j : S2048x1024.Idx) : k0_pay1 (F := Ideal) j = 0 := by
  unfold k0_pay1
  rw [shapeCast_self]
  exact Ideal.ofBits_zero_f32

/-- One accumulation step at entry (p, q): the accumulator there plus the 512-term dot product of row p of the
    `x` block with row q of the `w` block. -/
theorem accumulate_apply (x : Vec Ideal S2048x512 .f32) (w : Vec Ideal S1024x512 .f32) (acc : Vec Ideal S2048x1024 .f32)
    (p : Fin 2048) (q : Fin 1024) :
    k0_pay2 (F := Ideal) x w acc (ix2 p q) = acc (ix2 p q) + ∑ kk : Fin 512, x (ix2 p kk) * w (ix2 q kk) := by
  unfold k0_pay2
  rw [shapeCast_self, addf_apply]
  simp only [matmul]
  rw [Ideal.matmul_constant_zero_apply, ← Equiv.sum_comp (contrEquiv1 dot_S2048x512_S1024x512_S2048x1024_1_1_0_0_n_n 512 rfl rfl).symm]
  refine congrArg (acc (ix2 p q) + ·) (Finset.sum_congr rfl fun kk _ => ?_)
  have hk := contrEquiv1_symm_val dot_S2048x512_S1024x512_S2048x1024_1_1_0_0_n_n 512 rfl rfl kk
  have el : dot_S2048x512_S1024x512_S2048x1024_1_1_0_0_n_n.lhsIdx (ix2 p q) ((contrEquiv1 dot_S2048x512_S1024x512_S2048x1024_1_1_0_0_n_n 512 rfl rfl).symm kk) = ix2 p kk := funext fun a => Fin.ext (by
    match a with
    | ⟨0, _⟩ => exact xrow_axis0 _ _
    | ⟨1, _⟩ => exact (xrow_axis1 _ _).trans hk)
  have er : dot_S2048x512_S1024x512_S2048x1024_1_1_0_0_n_n.rhsIdx (ix2 p q) ((contrEquiv1 dot_S2048x512_S1024x512_S2048x1024_1_1_0_0_n_n 512 rfl rfl).symm kk) = ix2 q kk := funext fun a => Fin.ext (by
    match a with
    | ⟨0, _⟩ => exact wrow_axis0 _ _
    | ⟨1, _⟩ => exact (wrow_axis1 _ _).trans hk)
  rw [truncf_apply, truncf_apply, el, er]

/-- The epilogue at entry (p, q): the accumulator there plus the bias row's entry of column q. -/
theorem epilogue_apply (acc : Vec Ideal S2048x1024 .f32) (b : Vec Ideal S1x1024 .f32) (p : Fin 2048) (q : Fin 1024) :
    k0_pay3 (F := Ideal) acc b (ix2 p q) = acc (ix2 p q) + b (ix2 (0 : Fin 1) q) := by
  unfold k0_pay3
  rw [shapeCast_self, addf_apply]
  refine congrArg (acc (ix2 p q) + ·) ?_
  exact broadcastTo_apply b broadcasts_S1x1024_S2048x1024 (ix2 p q) (ix2 (0 : Fin 1) q) (fun a => by
    match a with
    | ⟨0, _⟩ => show (0 : ℕ) = if (1 : ℕ) = 1 then 0 else _; rw [if_pos rfl]
    | ⟨1, _⟩ => show q.val = if (1024 : ℕ) = 1 then 0 else q.val; rw [if_neg (by decide)])

end Cert.KernelIdeal.Payload

end
-- ==== Proof.Accumulate.lean ====
/-
  The accumulator after each grid point, and the block written at the last reduction step.

  Induction on the point's number n.  If n mod 8 = 0 the accumulator was cleared and holds the first stretch.  Otherwise
  the point before (same row-tile, same column-tile, reduction step one less) left the first n mod 8 stretches, and this
  point adds stretch number n mod 8.  At n mod 8 = 7 that makes all eight, and the output block is that plus the bias.
-/
import proofs.«138088_j32555852104252_1_alg».proof.Proof.Blocks
import proofs.«138088_j32555852104252_1_alg».proof.Proof.Pieces
import proofs.«138088_j32555852104252_1_alg».proof.Proof.Payload

noncomputable section

open scoped BigOperators
open Idealize.ShloMosaic Idealize.ShloMosaic.TcCoe Idealize.SL.Sem
open Idealize.ShloMosaic.Pipeline (Dat)

namespace Cert.KernelIdeal.Accumulate

open Cert.KernelIdeal Cert.KernelIdeal.Gen Idealize.ShloMosaic.ValueIdx Cert.BlockedSum Cert.KernelIdeal.Blocks

variable (m : (ℓ : Loc nD τ sig) → Buf (Elt Ideal) ℓ)

/-- After point n the accumulator's entry (p, q) is the dot product of row 2048·(n/32) + p of `x` with row
    1024·((n/8) mod 4) + q of `weight` over the first (n mod 8) + 1 stretches of 512 columns. -/
theorem scratch_eq (c : Dev nD) : ∀ (n : ℕ) (h : n < cfg0.N) (p : Fin 2048) (q : Fin 1024),
    (outsAt0 m c n h).2 (ix2 p q)
      = partialDot (xArr m c) (wArr m c) (2048 * (n / 32) + p.val) (1024 * (n / 8 % 4) + q.val) (n % 8 + 1) := by
  intro n
  induction n using Nat.strong_induction_on with
  | _ n ih =>
    intro h p q
    have hN : n < 64 := lt_of_lt_of_eq h (show cfg0.N = 64 from N_0)
    by_cases h0 : n % 8 = 0
    · -- the accumulator was cleared at this point: it holds the first stretch alone
      have h1 : ¬n % 8 = 7 := by omega
      rw [outsAt0_A m c ⟨n, h⟩ h0 h1]
      dsimp only
      refine (congrFun (Pieces.scratch_after_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh)) (xblk m c ⟨n, h⟩) (wblk m c ⟨n, h⟩) (bblk m c ⟨n, h⟩)) (ix2 p q)).trans ?_
      refine (Payload.accumulate_apply (xblk m c ⟨n, h⟩) (wblk m c ⟨n, h⟩) (k0_pay1 (F := Ideal)) p q).trans ?_
      rw [Payload.cleared_apply, zero_add]
      refine (block_product m c ⟨n, h⟩ p q).trans ?_
      show stretch (xArr m c) (wArr m c) (2048 * (n / 32) + p.val) (1024 * (n / 8 % 4) + q.val) (n % 8)
        = partialDot (xArr m c) (wArr m c) (2048 * (n / 32) + p.val) (1024 * (n / 8 % 4) + q.val) (n % 8 + 1)
      rw [h0, partialDot_succ, partialDot_zero, zero_add]
    · have e1 : (n - 1) / 32 = n / 32 := by omega
      have e2 : (n - 1) / 8 % 4 = n / 8 % 4 := by omega
      have e3 : (n - 1) % 8 + 1 = n % 8 := by omega
      have hprev := ih (n - 1) (by omega) (Nat.lt_of_le_of_lt (Nat.sub_le _ _) h) p q
      rw [e1, e2, e3] at hprev
      by_cases h1 : n % 8 = 7
      · -- the last reduction step: the accumulator is updated as at any later step
        rw [outsAt0_C m c ⟨n, h⟩ h0 h1]
        dsimp only
        refine (congrFun (Pieces.scratch_after_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1) (xblk m c ⟨n, h⟩) (wblk m c ⟨n, h⟩) (bblk m c ⟨n, h⟩) ((outsAt0 m c (n - 1) (Nat.lt_of_le_of_lt (Nat.sub_le _ _) h)).2)) (ix2 p q)).trans ?_
        refine (Payload.accumulate_apply (xblk m c ⟨n, h⟩) (wblk m c ⟨n, h⟩) ((outsAt0 m c (n - 1) (Nat.lt_of_le_of_lt (Nat.sub_le _ _) h)).2) p q).trans ?_
        rw [hprev]
        refine (congrArg (partialDot (xArr m c) (wArr m c) (2048 * (n / 32) + p.val) (1024 * (n / 8 % 4) + q.val) (n % 8) + ·) (block_product m c ⟨n, h⟩ p q)).trans ?_
        exact (partialDot_succ _ _ _ _ _).symm
      · -- a middle step
        rw [outsAt0_B m c ⟨n, h⟩ h0 h1]
        dsimp only
        refine (congrFun (Pieces.scratch_after_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh)) (xblk m c ⟨n, h⟩) (wblk m c ⟨n, h⟩) (bblk m c ⟨n, h⟩) ((outsAt0 m c (n - 1) (Nat.lt_of_le_of_lt (Nat.sub_le _ _) h)).2)) (ix2 p q)).trans ?_
        refine (Payload.accumulate_apply (xblk m c ⟨n, h⟩) (wblk m c ⟨n, h⟩) ((outsAt0 m c (n - 1) (Nat.lt_of_le_of_lt (Nat.sub_le _ _) h)).2) p q).trans ?_
        rw [hprev]
        refine (congrArg (partialDot (xArr m c) (wArr m c) (2048 * (n / 32) + p.val) (1024 * (n / 8 % 4) + q.val) (n % 8) + ·) (block_product m c ⟨n, h⟩ p q)).trans ?_
        exact (partialDot_succ _ _ _ _ _).symm

/-- At a point of the last reduction step the output block's entry (p, q) is the whole dot product of the two rows plus
    the bias entry of the column. -/
theorem out_eq (c : Dev nD) (t : Fin cfg0.N) (h1 : t.val % 8 = 7) (p : Fin 2048) (q : Fin 1024) :
    (outsAt0 m c t.val t.isLt).1 (ix2 p q)
      = partialDot (xArr m c) (wArr m c) (2048 * (t.val / 32) + p.val) (1024 * (t.val / 8 % 4) + q.val) 8
        + at1 (bArr m c) (1024 * (t.val / 8 % 4) + q.val) := by
  have hN := lt_64 t
  have h0 : ¬t.val % 8 = 0 := by omega
  have e1 : (t.val - 1) / 32 = t.val / 32 := by omega
  have e2 : (t.val - 1) / 8 % 4 = t.val / 8 % 4 := by omega
  have e3 : (t.val - 1) % 8 + 1 = 7 := by omega
  have hprev := scratch_eq m c (t.val - 1) (Nat.lt_of_le_of_lt (Nat.sub_le _ _) t.isLt) p q
  rw [e1, e2, e3] at hprev
  rw [outsAt0_C m c t h0 h1]
  dsimp only
  refine (congrFun (Pieces.out_after_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (xblk m c t) (wblk m c t) (bblk m c t) ((outsAt0 m c (t.val - 1) (Nat.lt_of_le_of_lt (Nat.sub_le _ _) t.isLt)).2)) (ix2 p q)).trans ?_
  refine (Payload.epilogue_apply (k0_pay2 (F := Ideal) (xblk m c t) (wblk m c t) ((outsAt0 m c (t.val - 1) (Nat.lt_of_le_of_lt (Nat.sub_le _ _) t.isLt)).2)) (bblk m c t) p q).trans ?_
  rw [bblk_apply]
  refine congrArg (· + at1 (bArr m c) (1024 * (t.val / 8 % 4) + q.val)) ?_
  refine (Payload.accumulate_apply (xblk m c t) (wblk m c t) ((outsAt0 m c (t.val - 1) (Nat.lt_of_le_of_lt (Nat.sub_le _ _) t.isLt)).2) p q).trans ?_
  rw [hprev, block_product, h1]
  exact (partialDot_succ _ _ _ _ 7).symm

end Cert.KernelIdeal.Accumulate

end
-- ==== Proof.Result.lean ====
/-
  The result array after the run is `x · weightᵀ + bias`.

  Only the points of the last reduction step write their output block back, and point t writes rows 2048·(t/32) …,
  columns 1024·((t/8) mod 4) … of the result.  What it writes is the block of `linear` at those rows and columns
  (`flushed_eq`: the eight stretches together are the full contraction).  Every entry (r, s) of the result lies in the block
  of the point with row-tile r / 2048, column-tile s / 1024 and reduction step 7, so the written blocks cover the array.
-/
import proofs.«138088_j32555852104252_1_alg».proof.Proof.Accumulate

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.BlockedSum Cert.KernelIdeal.Blocks

variable (m : (ℓ : Loc nD τ sig) → Buf (Elt Ideal) ℓ) (ρ : Dev nD → PrngReg)

/-- `x · weightᵀ + bias` of the arguments as launched. -/
abbrev result (c : Dev nD) : Buf (Elt Ideal) ((c : Thread nD τ).loc main_v1) :=
  linear (xArr m c) (wArr m c) (bArr m c)

/-- A point that writes its output block back writes the block of the result at its rows and columns. -/
theorem flushed_eq (c : Dev nD) (t : Fin cfg0.N) (hf : (cfg0.win 3).flush t = true) :
    (dats m 0 c).flushed 3 t = ((cfg0.win 3).blk t).view.read (Elt Ideal) (result m c) := by
  have h1 : t.val % 8 = 7 := (flush0_3 t).mp hf
  have hN := lt_64 t
  obtain ⟨-, -, -, -, -, -, e6, e7⟩ := block_index t
  rw [Value.flushed3]
  show (fun j : S2048x1024.Idx => (outsAt0 m c t.val t.isLt).1 j)
    = fun j : S2048x1024.Idx => result m c (((cfg0.win 3).blk t).view.emb j)
  funext j
  obtain ⟨p, q, rfl⟩ : ∃ (p : Fin 2048) (q : Fin 1024), j = ix2 p q := ⟨j 0, j 1, eq_ix2 j⟩
  have hr : 2048 * (t.val / 32) + p.val < 4096 := by omega
  have hs : 1024 * (t.val / 8 % 4) + q.val < 4096 := by omega
  have e : ((cfg0.win 3).blk t).view.emb (ix2 p q)
      = ix2 (⟨2048 * (t.val / 32) + p.val, hr⟩ : Fin 4096) (⟨1024 * (t.val / 8 % 4) + q.val, hs⟩ : Fin 4096) :=
    funext fun a => Fin.ext (by
      match a with
      | ⟨0, _⟩ => show win0_3.index t (0 : Fin 2) * 2048 + 1 * p.val = 2048 * (t.val / 32) + p.val; rw [e6]; omega
      | ⟨1, _⟩ => show win0_3.index t (1 : Fin 2) * 1024 + 1 * q.val = 1024 * (t.val / 8 % 4) + q.val; rw [e7]; omega)
  rw [e, Accumulate.out_eq m c t h1 p q]
  exact (linear_eq_stretches (xArr m c) (wArr m c) (bArr m c) ⟨2048 * (t.val / 32) + p.val, hr⟩ ⟨1024 * (t.val / 8 % 4) + q.val, hs⟩).symm

/-- An entry of the result is in point `t`'s block iff each coordinate is in the block's range on its axis. -/
theorem mem_block (t : Fin cfg0.N) (i : S4096x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v1).slice (win0_3.rect t)).set ↔ _
  rw [View.set_slice_whole, Rect.mem_set_unit]
  exact Iff.rfl

/-- Every entry of the result is written by some point of the last reduction step. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 64 := N_0
  let t : Fin cfg0.N := ⟨32 * ((i 0).val / 2048) + 8 * ((i 1).val / 1024) + 7, by rw [hN]; omega⟩
  have ht : t.val = 32 * ((i 0).val / 2048) + 8 * ((i 1).val / 1024) + 7 := rfl
  obtain ⟨-, -, -, -, -, -, e6, e7⟩ := block_index t
  refine ⟨t, (flush0_3 t).mpr (by rw [ht]; omega), ?_⟩
  rw [mem_block]
  intro a
  match a with
  | ⟨0, _⟩ => show win0_3.index t (0 : Fin 2) * 2048 ≤ (i 0).val ∧ (i 0).val < win0_3.index t (0 : Fin 2) * 2048 + 2048; rw [e6, ht]; omega
  | ⟨1, _⟩ => show win0_3.index t (1 : Fin 2) * 1024 ≤ (i 1).val ∧ (i 1).val < win0_3.index t (1 : Fin 2) * 1024 + 1024; rw [e7, ht]; omega

/-- So the result array ends at `x · weightᵀ + bias`. -/
theorem result_eq (c : Dev nD) : (dats m 0 c).arrAt 3 cfg0.N = result m c :=
  (dats m 0 c).arrAt_eq_of_cover 3 (result m c) (flushed_eq m c) (covered)

/-- The kernel's run, read: the result array at `x · weightᵀ + bias`, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_eq m c), (h c).2⟩) (Value.run_blocks m ρ)

end Cert.KernelIdeal.Result

end
-- ==== Proof.RefLinear.lean ====
/-
  The reference, entry by entry.

  `jnp.einsum("bi,oi->bo", x, weight) + bias[None, :]` lowers to one `dot_general` contracting the second axis of both
  operands, two broadcasts that carry `bias` to every row, and one addition.  Read at an output index (r, s) this is the
  4096-term dot product of row r of `x` with row s of `weight`, plus `bias` at s: the function `linear`.
-/
import proofs.«138088_j32555852104252_1_alg».proof.Proof.Gen.ReferenceIdeal.Read
import proofs.«138088_j32555852104252_1_alg».proof.Proof.BlockedSum

noncomputable section

open scoped BigOperators

namespace Cert.ReferenceIdeal.RefValue

open Cert.ReferenceIdeal Cert.ReferenceIdeal.Read Idealize.ShloMosaic Idealize.ShloMosaic.ValueIdx

/-- The reference's result array is `linear` of its three arguments. -/
theorem reference_is_linear (X W : (⟨S4096x4096, .f32⟩ : BufTy).Contents (Elt Ideal))
    (b : (⟨S4096, .f32⟩ : BufTy).Contents (Elt Ideal)) :
    val_main_v3 (F := Ideal) X W b = Cert.BlockedSum.linear X W b := by
  funext i
  have eL : ∀ k : Fin 4096, lidx_main_v0 i k = ix2 (i 0) k := fun k =>
    funext fun a => Fin.ext (by match a with | ⟨0, _⟩ => rfl | ⟨1, _⟩ => rfl)
  have eR : ∀ k : Fin 4096, ridx_main_v0 i k = ix2 (i 1) k := fun k =>
    funext fun a => Fin.ext (by match a with | ⟨0, _⟩ => rfl | ⟨1, _⟩ => rfl)
  have eB : idx_main_v1 (idx_main_v2 i) = ix1 (i 1) :=
    funext fun a => Fin.ext (by match a with | ⟨0, _⟩ => rfl)
  rw [val_main_v3_apply, val_main_v0_apply, val_main_v2_apply, val_main_v1_apply]
  simp only [eL, eR, eB]
  rfl

end Cert.ReferenceIdeal.RefValue

end
-- ==== Proof.lean ====
/- The proof of `Cert.Claim`: a tiled linear layer `x · weightᵀ + bias` (4096 × 4096 by 4096 × 4096, f32, the
   matrix unit fed bf16) against `jnp.einsum("bi,oi->bo", x, weight) + bias[None, :]`.

   On the extended reals a change of float format is the identity and addition is commutative and associative with no
   side condition, so the only difference between the two programs is the grouping of each entry's 4096 products: the
   kernel adds eight partial dot products of 512 terms to an accumulator that starts at zero, the reference contracts all
   4096 columns at once.  The finiteness of the inputs is not used.
     Proof/BlockedSum.lean   the regrouping of a 4096-term sum into eight stretches of 512; the function `linear`
     Proof/RefLinear.lean    the reference's result array is `linear` of its arguments
     Proof/Pieces.lean       what the body leaves in the accumulator and in the output block, as its arithmetic
     Proof/Payload.lean      that arithmetic at one entry
     Proof/Blocks.lean       the input blocks of a grid point, read from the arguments
     Proof/Accumulate.lean   the accumulator after each grid point, by induction on the point
     Proof/Result.lean       the blocks written back tile the result, which is `linear` of the arguments
   The three frames are the generated ones (the reference's is its generated run with the result dropped), and the
   idealization rewrote nothing, so `preserves` is `True`. -/
import proofs.«138088_j32555852104252_1_alg».proof.Defs
import proofs.«138088_j32555852104252_1_alg».proof.Proof.Gen.Kernel
import proofs.«138088_j32555852104252_1_alg».proof.Proof.Gen.Kernel.Skeleton
import proofs.«138088_j32555852104252_1_alg».proof.Proof.Gen.Kernel.Launch
import proofs.«138088_j32555852104252_1_alg».proof.Proof.Gen.Kernel.Points
import proofs.«138088_j32555852104252_1_alg».proof.Proof.Gen.Kernel.Frame
import proofs.«138088_j32555852104252_1_alg».proof.Proof.Gen.KernelIdeal
import proofs.«138088_j32555852104252_1_alg».proof.Proof.Gen.KernelIdeal.Skeleton
import proofs.«138088_j32555852104252_1_alg».proof.Proof.Gen.KernelIdeal.Launch
import proofs.«138088_j32555852104252_1_alg».proof.Proof.Gen.KernelIdeal.Points
import proofs.«138088_j32555852104252_1_alg».proof.Proof.Gen.KernelIdeal.Frame
import proofs.«138088_j32555852104252_1_alg».proof.Proof.Gen.ReferenceIdeal
import proofs.«138088_j32555852104252_1_alg».proof.Proof.Gen.Pre_finite_inputs
import proofs.«138088_j32555852104252_1_alg».proof.Proof.Gen.KernelIdeal.Value
import proofs.«138088_j32555852104252_1_alg».proof.Proof.Gen.ReferenceIdeal.Run
import proofs.«138088_j32555852104252_1_alg».proof.Proof.Gen.ReferenceIdeal.Read
import proofs.«138088_j32555852104252_1_alg».proof.Proof.Result
import proofs.«138088_j32555852104252_1_alg».proof.Proof.RefLinear
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `x · weightᵀ + bias` of the arguments they share. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_is_linear,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
